-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S2048x2048 : Shape := ⟨2, ![2048, 2048]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) (main_arg2 : FVec F S8x2048x128 .f32) (main_arg3 : IVec S2048x2048 32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  main_v13
-- ==== Kernel.lean ====
abbrev S8x2048x128 : Shape := ⟨3, ![8, 2048, 128]⟩
abbrev S2048x2048 : Shape := ⟨2, ![2048, 2048]⟩
abbrev S8x2048x2048 : Shape := ⟨3, ![8, 2048, 2048]⟩
abbrev S1x256x128 : Shape := ⟨3, ![1, 256, 128]⟩
abbrev S1x2048x128 : Shape := ⟨3, ![1, 2048, 128]⟩
abbrev S1x256x2048 : Shape := ⟨3, ![1, 256, 2048]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S2048x2048, .i32⟩
  | .hbm, ⟨4, _⟩ => ⟨S8x2048x128, .f32⟩
  | .hbm, ⟨5, _⟩ => ⟨S8x2048x2048, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S2048x2048, .i32⟩
  | .local _ .vmem, ⟨7, _⟩ => ⟨S1x256x128, .f32⟩
  | .local _ .vmem, ⟨8, _⟩ => ⟨S1x256x128, .f32⟩
  | .local _ .vmem, ⟨9, _⟩ => ⟨S1x256x2048, .f32⟩
  | .local _ .vmem, ⟨10, _⟩ => ⟨S1x256x2048, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v6 : BitVec 32 := Scalar.muli arg1 c256_i32
  v6
def k0_off1 (i : grid0.Coords) : Fin 2 → Nat :=
  let arg1 : BitVec 32 := BitVec.ofNat 32 (i 1).val
  let c256_i32 : BitVec 32 := 256#32
  let v6 : BitVec 32 := Scalar.muli arg1 c256_i32
  let v7 : BitVec 32 := v6
  let v8 : Index := Scalar.indexCast v7
  let c0_8 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  h_S256x2048 : 0 < S256x2048.numel
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x128_S1x256x128 : S256x128.ShapeCasts S1x256x128
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x2048x128.size a
  hwx0_0 : ∀ i : grid0.Coords, EltTy.bits .f32 = 32 ∨ (Rect.block (s := S8x2048x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .i32 = 32 ∨ (Rect.block (s := S2048x2048) S2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S8x2048x128.size a
  hwx0_4 : ∀ i : grid0.Coords, EltTy.bits .f32 = 32 ∨ (Rect.block (s := S8x2048x128) S1x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S2048x2048 : Shape := ⟨2, ![2048, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S2048x2048, .i32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S_, .i32⟩
  | .hbm, ⟨9, _⟩ => ⟨S2048x2048, .i32⟩
  | .hbm, ⟨10, _⟩ => ⟨S2048x2048, .i1⟩
  | .hbm, ⟨11, _⟩ => ⟨S_, .f32⟩
  | .hbm, ⟨12, _⟩ => ⟨S_, .f32⟩
  | .hbm, ⟨13, _⟩ => ⟨S8x2048x2048, .i1⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.KernelPieces.lean ====
/-
  What one grid point of the attention kernel leaves in its two output blocks, as values.

  At grid point `(b, qi)` the body reads the query block (256 rows of batch `b`), the whole key and value
  blocks of batch `b`, and rows `256·qi … 256·qi + 255` of the mask (a load at a row offset that depends on
  the point), and stores once into each output block: the 256 × 2048 tile of attention weights, and the
  256 × 128 tile of outputs. Each block therefore holds its one store's value, a pure function of the three
  float blocks and of the mask rows (`maskTile`), and the mask rows read at `(r, k)` are the mask at
  `(256·qi + r, k)`.
-/
import proofs.«403430_j75076028334843_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F] [Named F]

theorem zero_offsets : (![0, 0, 0] : Fin 3 → Nat) = fun _ => 0 := funext fun a => by fin_cases a <;> rfl

/-- The 256 mask rows the body loads at grid point `i`: the mask read through the rectangle at the point's row offset. -/
def maskTile (i : grid0.Coords) (x3 : Vec F S2048x2048 .i32) : Vec F S256x2048 .i32 :=
  View.ld x3 (Rect.unit (s := S2048x2048) (k0_off1 i) S256x2048.size (k0_off1_inb i))

/-- The weights block after the body: its one store's value. -/
theorem weightsBlock_eq (c : Dev nD) (i : grid0.Coords) (arg2 : Memref sig .tc .vmem S1x256x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S2048x2048 .i32) (harg5 : arg5.IsWhole) (arg6 : Memref sig .tc .vmem S1x256x128 .f32) (harg6 : arg6.IsWhole) (arg7 : Memref sig .tc .vmem S1x256x2048 .f32) (harg7 : arg7.IsWhole)
    (x0 : Vec F S1x256x128 .f32) (x1 : Vec F S1x2048x128 .f32) (x2 : Vec F S1x2048x128 .f32) (x3 : Vec F S2048x2048 .i32) :
    out0_A_5 c i arg2 harg2 arg3 harg3 arg4 harg4 arg5 harg5 arg6 harg6 arg7 harg7 x0 x1 x2 x3 = k0_pay2 x0 x1 (maskTile i x3) := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  sl_unfold_words
  rw [View.canon_unit_zero zero_offsets]
  simp only [View.readAt_eq_ld, harg2.read_unread, harg3.read_unread, harg5.read_unread, View.ld_unit_zero (S := S1x256x128) zero_offsets, View.ld_unit_zero (S := S1x2048x128) zero_offsets]
  rfl

/-- The output block after the body: its one store's value. -/
theorem outputBlock_eq (c : Dev nD) (i : grid0.Coords) (arg2 : Memref sig .tc .vmem S1x256x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S2048x2048 .i32) (harg5 : arg5.IsWhole) (arg6 : Memref sig .tc .vmem S1x256x128 .f32) (harg6 : arg6.IsWhole) (arg7 : Memref sig .tc .vmem S1x256x2048 .f32) (harg7 : arg7.IsWhole)
    (x0 : Vec F S1x256x128 .f32) (x1 : Vec F S1x2048x128 .f32) (x2 : Vec F S1x2048x128 .f32) (x3 : Vec F S2048x2048 .i32) :
    out0_A_4 c i arg2 harg2 arg3 harg3 arg4 harg4 arg5 harg5 arg6 harg6 arg7 harg7 x0 x1 x2 x3 = k0_pay3 x0 x1 x2 (maskTile i x3) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero zero_offsets]
  simp only [View.readAt_eq_ld, harg2.read_unread, harg3.read_unread, harg4.read_unread, harg5.read_unread, View.ld_unit_zero (S := S1x256x128) zero_offsets, View.ld_unit_zero (S := S1x2048x128) zero_offsets]
  rfl

/-- The mask load's row offset at a grid point is 256 times the point's query-tile coordinate (which is below 8,
    so the 32-bit product does not wrap). -/
theorem rowOffset (i : grid0.Coords) : k0_off1 i 0 = 256 * (i 1).val := by
  have h8 : (i 1).val < 8 := (i 1).isLt
  show (Scalar.indexCast (Scalar.muli (BitVec.ofNat 32 (i 1).val) 256#32)).toNat = 256 * (i 1).val
  generalize (i 1).val = n at h8 ⊢
  interval_cases n <;> rfl

/-- The loaded mask rows at `(r, k)` are the mask at `(256·qi + r, k)`. -/
theorem maskTile_apply (i : grid0.Coords) (x3 : Vec F S2048x2048 .i32) (r : Fin 256) (k : Fin 2048) :
    maskTile i x3 (ix2 r k) = x3 (ix2 (⟨256 * (i 1).val + r.val, by have h8 : (i 1).val < 8 := (i 1).isLt; omega⟩ : Fin 2048) k) := by
  unfold maskTile View.ld
  refine congrArg x3 (funext fun a => Fin.ext ?_)
  match a with
  | ⟨0, _⟩ => show k0_off1 i 0 + 1 * r.val = 256 * (i 1).val + r.val; rw [rowOffset]; omega
  | ⟨1, _⟩ => show k0_off1 i 1 + 1 * k.val = k.val; rw [show k0_off1 i 1 = 0 from rfl]; omega

end Cert.KernelIdeal.Pieces

end
-- ==== Proof.Softmax.lean ====
/-
  Masked scaled-dot-product attention over the extended reals, as ONE function of the argument arrays.

  For a batch `b`, a query row `r` and a key row `k` the score is the inner product of query row `(b, r)`
  with key row `(b, k)`, times a scale; a key the mask blocks (mask word `0` at `(r, k)`) scores `-∞`.
  A row of scores `s` becomes weights `exp (s k - M) / ∑ k', exp (s k' - M)` with `M` the row's maximum
  taken from `-∞`, and the output row is the weights' combination of the value rows.
  The exponential and the quotient are the ideal instance's (`Ideal.exp`, `Ideal.div`: their conventions at the
  infinities and at a zero denominator are whatever that instance fixes; nothing here depends on them).
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Attention

/-- The shape of queries, keys, values and of the output: batch × rows × features. -/
abbrev SQ : Shape := ⟨3, ![8, 2048, 128]⟩
/-- The shape of the mask: query row × key row. -/
abbrev SM : Shape := ⟨2, ![2048, 2048]⟩
/-- The shape of the attention weights: batch × query row × key row. -/
abbrev SW : Shape := ⟨3, ![8, 2048, 2048]⟩

/-- A row's maximum, taken from `-∞`. -/
def rowMax (s : Fin 2048 → EReal) : EReal := (Finset.univ : Finset (Fin 2048)).fold max ⊥ s

/-- The softmax of a row of scores at key `k`: the shifted exponential over the sum of the row's shifted exponentials. -/
def softmaxRow (s : Fin 2048 → EReal) (k : Fin 2048) : EReal :=
  Ideal.div (Ideal.exp (s k - rowMax s)) (∑ k' : Fin 2048, Ideal.exp (s k' - rowMax s))

/-- The scaled inner product of query row `(b, r)` and key row `(b, k)`. -/
def score (Q K : SQ.Idx → EReal) (b : Fin 8) (r k : Fin 2048) : EReal :=
  (∑ d : Fin 128, Q (ix3 b r d) * K (ix3 b k d)) * Ideal.ofBits .f32 0x3DB504F3#32

/-- The score with blocked keys at `-∞`. -/
def masked (Q K : SQ.Idx → EReal) (M : SM.Idx → BitVec 32) (b : Fin 8) (r k : Fin 2048) : EReal :=
  if M (ix2 r k) = 0#32 then ⊥ else score Q K b r k

/-- The attention weights: each row of masked scores through the softmax. -/
def weights (Q K : SQ.Idx → EReal) (M : SM.Idx → BitVec 32) : SW.Idx → EReal :=
  fun i => softmaxRow (masked Q K M (i 0) (i 1)) (i 2)

/-- The attention output: each row of weights combined with the value rows. -/
def output (Q K V : SQ.Idx → EReal) (M : SM.Idx → BitVec 32) : SQ.Idx → EReal :=
  fun i => ∑ k : Fin 2048, weights Q K M (ix3 (i 0) (i 1) k) * V (ix3 (i 0) k (i 2))

/-- The f32 pattern of `-∞` is the bottom extended real. -/
theorem ofBits_neg_inf : Ideal.ofBits .f32 0xFF800000#32 = ⊥ := by simp [Ideal.ofBits, Ideal.ieee]

/-- A select on "the word is zero" is the `if` on that equation. -/
theorem select_eq_zero {α : Type} (x : BitVec 32) (a b : α) :
    Scalar.select (IntOp.cmpi .eq x 0#32) a b = if x = 0#32 then a else b := by
  unfold Scalar.select IntOp.cmpi
  by_cases h : x = 0#32
  · subst h; simp
  · have hb : (x == 0#32) = false := beq_false_of_ne h
    simp [h, hb]

end Cert.Attention

end
-- ==== Proof.KernelPayload.lean ====
/-
  The body's arithmetic, read at an index of its tile, at the ideal instance.

  With `q` the query block (1 × 256 × 128), `kk` and `vv` the key and value blocks (1 × 2048 × 128) and `mt`
  the 256 mask rows of the grid point, the weights tile at `(r, k)` is the softmax, at key `k`, of the row of
  masked scaled scores of query row `r` — the body's named `-∞` stand-in IS `-∞` at the ideal instance —, and
  the output tile at `(r, d)` is the combination of the value rows by row `r` of that weights tile.
  The two matrix products are sums over the one contracted axis; the row maximum and the row sum are a fold and a
  sum over the key axis, kept as a one-column matrix and spread back over the row.
-/
import proofs.«403430_j75076028334843_3_alg».proof.Proof.Gen.KernelIdeal.Skeleton
import proofs.«403430_j75076028334843_3_alg».proof.Proof.Softmax
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators
open Idealize.ShloMosaic Idealize.ShloMosaic.ValueIdx

namespace Cert.KernelIdeal.Payload

open Cert.KernelIdeal Cert.KernelIdeal.Gen Cert.Attention

/-- The body's stand-in for `-∞` denotes `-∞` at the ideal instance, by the certificate's table. -/
theorem neg_big : Named.named (F := Ideal) κ "neg_big" (φ := .f32) 0xFF333332#32 = (⊥ : EReal) :=
  IdealRules.named_const.ideal_named_scalar _ _ _ _ rfl

/-! ## The two matrix products as sums over the contracted axis -/

theorem qk_lhs_0 (i : S256x2048.Idx) (q : dot_S256x128_S2048x128_S256x2048_1_1_0_0_n_n.contr.Idx) : (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem qk_lhs_1 (i : S256x2048.Idx) (q : dot_S256x128_S2048x128_S256x2048_1_1_0_0_n_n.contr.Idx) : (dot_S256x128_S2048x128_S256x2048_1_1_0_0_n_n.lhsIdx i q 1).val = (q ⟨0, by decide⟩).val :=
  dot_S256x128_S2048x128_S256x2048_1_1_0_0_n_n.lhsIdx_val_of_single rfl i q
theorem qk_rhs_0 (i : S256x2048.Idx) (q : dot_S256x128_S2048x128_S256x2048_1_1_0_0_n_n.contr.Idx) : (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem qk_rhs_1 (i : S256x2048.Idx) (q : dot_S256x128_S2048x128_S256x2048_1_1_0_0_n_n.contr.Idx) : (dot_S256x128_S2048x128_S256x2048_1_1_0_0_n_n.rhsIdx i q 1).val = (q ⟨0, by decide⟩).val :=
  dot_S256x128_S2048x128_S256x2048_1_1_0_0_n_n.rhsIdx_val_of_single rfl i q

/-- Query rows times key rows, into zero: entry `(r, k)` is the inner product of query row `r` and key row `k`. -/
theorem scores_apply (q : FVec Ideal S256x128 .f32) (kk : FVec Ideal S2048x128 .f32) (r : Fin 256) (k : Fin 2048) :
    matmul dot_S256x128_S2048x128_S256x2048_1_1_0_0_n_n none q kk (constant (F := Ideal) S256x2048 .f32 0x00000000#32) (ix2 r k)
      = ∑ d : Fin 128, q (ix2 r d) * kk (ix2 k d) := by
  simp only [matmul]
  rw [Ideal.matmul_constant_zero_apply, ← Equiv.sum_comp (ValueIdx.contrEquiv1 dot_S256x128_S2048x128_S256x2048_1_1_0_0_n_n 128 rfl rfl).symm]
  refine Finset.sum_congr rfl fun d _ => ?_
  have hd := ValueIdx.contrEquiv1_symm_val dot_S256x128_S2048x128_S256x2048_1_1_0_0_n_n 128 rfl rfl d
  have el : dot_S256x128_S2048x128_S256x2048_1_1_0_0_n_n.lhsIdx (ix2 r k) ((ValueIdx.contrEquiv1 dot_S256x128_S2048x128_S256x2048_1_1_0_0_n_n 128 rfl rfl).symm d) = ix2 r d := funext fun a => Fin.ext (by
    match a with
    | ⟨0, _⟩ => exact qk_lhs_0 _ _
    | ⟨1, _⟩ => exact (qk_lhs_1 _ _).trans hd)
  have er : dot_S256x128_S2048x128_S256x2048_1_1_0_0_n_n.rhsIdx (ix2 r k) ((ValueIdx.contrEquiv1 dot_S256x128_S2048x128_S256x2048_1_1_0_0_n_n 128 rfl rfl).symm d) = ix2 k d := funext fun a => Fin.ext (by
    match a with
    | ⟨0, _⟩ => exact qk_rhs_0 _ _
    | ⟨1, _⟩ => exact (qk_rhs_1 _ _).trans hd)
  rw [el, er]

theorem wv_lhs_0 (i : S256x128.Idx) (q : dot_S256x2048_S2048x128_S256x128_1_0_0_1_n_n.contr.Idx) : (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
theorem wv_lhs_1 (i : S256x128.Idx) (q : dot_S256x2048_S2048x128_S256x128_1_0_0_1_n_n.contr.Idx) : (dot_S256x2048_S2048x128_S256x128_1_0_0_1_n_n.lhsIdx i q 1).val = (q ⟨0, by decide⟩).val :=
  dot_S256x2048_S2048x128_S256x128_1_0_0_1_n_n.lhsIdx_val_of_single rfl i q
theorem wv_rhs_0 (i : S256x128.Idx) (q : dot_S256x2048_S2048x128_S256x128_1_0_0_1_n_n.contr.Idx) : (dot_S256x2048_S2048x128_S256x128_1_0_0_1_n_n.rhsIdx i q 0).val = (q ⟨0, by decide⟩).val :=
  dot_S256x2048_S2048x128_S256x128_1_0_0_1_n_n.rhsIdx_val_of_single rfl i q
theorem wv_rhs_1 (i : S256x128.Idx) (q : dot_S256x2048_S2048x128_S256x128_1_0_0_1_n_n.contr.Idx) : (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- Weight rows times value columns, into zero: entry `(r, d)` combines the value rows by weight row `r`. -/
theorem combine_apply (w : FVec Ideal S256x2048 .f32) (vv : FVec Ideal S2048x128 .f32) (r : Fin 256) (d : Fin 128) :
    matmul dot_S256x2048_S2048x128_S256x128_1_0_0_1_n_n none w vv (constant (F := Ideal) S256x128 .f32 0x00000000#32) (ix2 r d)
      = ∑ k : Fin 2048, w (ix2 r k) * vv (ix2 k d) := by
  simp only [matmul]
  rw [Ideal.matmul_constant_zero_apply, ← Equiv.sum_comp (ValueIdx.contrEquiv1 dot_S256x2048_S2048x128_S256x128_1_0_0_1_n_n 2048 rfl rfl).symm]
  refine Finset.sum_congr rfl fun k _ => ?_
  have hk := ValueIdx.contrEquiv1_symm_val dot_S256x2048_S2048x128_S256x128_1_0_0_1_n_n 2048 rfl rfl k
  have el : dot_S256x2048_S2048x128_S256x128_1_0_0_1_n_n.lhsIdx (ix2 r d) ((ValueIdx.contrEquiv1 dot_S256x2048_S2048x128_S256x128_1_0_0_1_n_n 2048 rfl rfl).symm k) = ix2 r k := funext fun a => Fin.ext (by
    match a with
    | ⟨0, _⟩ => exact wv_lhs_0 _ _
    | ⟨1, _⟩ => exact (wv_lhs_1 _ _).trans hk)
  have er : dot_S256x2048_S2048x128_S256x128_1_0_0_1_n_n.rhsIdx (ix2 r d) ((ValueIdx.contrEquiv1 dot_S256x2048_S2048x128_S256x128_1_0_0_1_n_n 2048 rfl rfl).symm k) = ix2 k d := funext fun a => Fin.ext (by
    match a with
    | ⟨0, _⟩ => exact (wv_rhs_0 _ _).trans hk
    | ⟨1, _⟩ => exact wv_rhs_1 _ _)
  rw [el, er]

/-! ## A row reduction, kept as a one-column matrix and spread back over the row -/

/-- A reduced row index `r` with key `k` put back on the reduced axis is `(r, k)`. -/
theorem lift_row (r : Fin 256) (k : Fin (S256x2048.size 1)) :
    reduces_S256x2048_S256.lift (ix1 r) k = ix2 r (⟨k.val, k.isLt⟩ : Fin 2048) := by
  funext c; apply Fin.ext
  fin_cases c <;> rfl

/-- A vector of 256 entries as a column, spread over 2048 columns, reads entry `r` everywhere on row `r`. -/
theorem column_apply (v : FVec Ideal S256 .f32) (r : Fin 256) (k : Fin 2048) :
    broadcastTo S256x2048 (shapeCast S256x1 v shapeCasts_S256_S256x1) broadcasts_S256x1_S256x2048 (ix2 r k) = v (ix1 r) := by
  refine (broadcastTo_apply _ broadcasts_S256x1_S256x2048 (ix2 r k) (ix2 r (0 : Fin 1)) fun a => ?_).trans ?_
  · match a with
    | ⟨0, _⟩ => show r.val = if (256 : Nat) = 1 then 0 else r.val; rw [if_neg (by decide)]
    | ⟨1, _⟩ => show 0 = if (1 : Nat) = 1 then 0 else k.val; rw [if_pos rfl]
  · exact shapeCast_apply v shapeCasts_S256_S256x1 (ix2 r (0 : Fin 1)) (ix1 r) (by
      rw [Shape.rowMajor_val_one, Shape.rowMajor_val_two]; show r.val = r.val * 1 + 0; omega)

/-- The maximum over the key axis from `-∞`, at row `r`, is that row's maximum. -/
theorem rowMax_apply (M : FVec Ideal S256x2048 .f32) (r : Fin 256) :
    multiReduction .maximumf [1] S256 M 0xFF800000#32 reduces_S256x2048_S256 (.inl rfl) rfl (ix1 r)
      = rowMax fun k => M (ix2 r k) := by
  refine (Ideal.multiReduction_maximumf_single M _ reduces_S256x2048_S256 (.inl rfl) rfl (ix1 r)).trans ?_
  have hf : (M ∘ reduces_S256x2048_S256.lift (ix1 r)) = fun k : Fin 2048 => M (ix2 r k) :=
    funext fun k => congrArg M (lift_row r k)
  show Finset.fold max (Ideal.ofBits .f32 0xFF800000#32) (M ∘ reduces_S256x2048_S256.lift (ix1 r)) (Finset.univ : Finset (Fin 2048)) = _
  rw [hf, ofBits_neg_inf]
  rfl

/-- The sum over the key axis from zero, at row `r`, is that row's sum. -/
theorem rowSum_apply (E : FVec Ideal S256x2048 .f32) (r : Fin 256) :
    multiReduction .add [1] S256 E 0x00000000#32 reduces_S256x2048_S256 (.inl rfl) rfl (ix1 r)
      = ∑ k : Fin 2048, E (ix2 r k) := by
  refine (Ideal.multiReduction_add_single E _ reduces_S256x2048_S256 (.inl rfl) rfl (ix1 r)).trans ?_
  exact Finset.sum_congr rfl fun k _ => congrArg E (lift_row r k)

/-! ## The softmax of a tile of scores, row by row -/

/-- Each row's maximum, on every entry of the row. -/
def rowMaxCol (M : FVec Ideal S256x2048 .f32) : FVec Ideal S256x2048 .f32 :=
  broadcastTo S256x2048 (shapeCast S256x1 (multiReduction .maximumf [1] S256 M 0xFF800000#32 reduces_S256x2048_S256 (.inl rfl) rfl) shapeCasts_S256_S256x1) broadcasts_S256x1_S256x2048
/-- The exponentials of the entries less their row's maximum. -/
def shifted (M : FVec Ideal S256x2048 .f32) : FVec Ideal S256x2048 .f32 := exp (subf M (rowMaxCol M))
/-- Each row's sum, on every entry of the row. -/
def rowSumCol (E : FVec Ideal S256x2048 .f32) : FVec Ideal S256x2048 .f32 :=
  broadcastTo S256x2048 (shapeCast S256x1 (multiReduction .add [1] S256 E 0x00000000#32 reduces_S256x2048_S256 (.inl rfl) rfl) shapeCasts_S256_S256x1) broadcasts_S256x1_S256x2048
/-- The softmax of every row of a tile. -/
def softmaxTile (M : FVec Ideal S256x2048 .f32) : FVec Ideal S256x2048 .f32 := divf (shifted M) (rowSumCol (shifted M))

theorem shifted_apply (M : FVec Ideal S256x2048 .f32) (r : Fin 256) (k : Fin 2048) :
    shifted M (ix2 r k) = Ideal.exp (M (ix2 r k) - rowMax fun k' => M (ix2 r k')) := by
  show Ideal.exp (M (ix2 r k) - rowMaxCol M (ix2 r k)) = _
  exact congrArg (fun x => Ideal.exp (M (ix2 r k) - x)) ((column_apply _ r k).trans (rowMax_apply M r))

theorem softmaxTile_apply (M : FVec Ideal S256x2048 .f32) (r : Fin 256) (k : Fin 2048) :
    softmaxTile M (ix2 r k) = softmaxRow (fun k' => M (ix2 r k')) k := by
  show Ideal.div (shifted M (ix2 r k)) (rowSumCol (shifted M) (ix2 r k)) = _
  have hs : rowSumCol (shifted M) (ix2 r k) = ∑ k' : Fin 2048, Ideal.exp (M (ix2 r k') - rowMax fun k'' => M (ix2 r k'')) :=
    ((column_apply _ r k).trans (rowSum_apply (shifted M) r)).trans (Finset.sum_congr rfl fun k' _ => shifted_apply M r k')
  rw [hs, shifted_apply]
  rfl

/-! ## The body's two stored values at an index -/

/-- The masked scaled score of query row `r` of the tile against key row `k`. -/
def tileScores (q : Vec Ideal S1x256x128 .f32) (kk : Vec Ideal S1x2048x128 .f32) (mt : Vec Ideal S256x2048 .i32) (r : Fin 256)
    (k : Fin 2048) : EReal :=
  if mt (ix2 r k) = 0#32 then ⊥
  else (∑ d : Fin 128, q (ix3 (0 : Fin 1) r d) * kk (ix3 (0 : Fin 1) k d)) * Ideal.ofBits .f32 0x3DB504F3#32

/-- The tile of masked scaled scores, as the body computes it. -/
def maskedTile (q : Vec Ideal S1x256x128 .f32) (kk : Vec Ideal S1x2048x128 .f32) (mt : Vec Ideal S256x2048 .i32) : FVec Ideal S256x2048 .f32 :=
  select (cmpi .eq mt (broadcast S256x2048 (0#32 : BitVec 32)))
    (broadcast S256x2048 (Named.named (F := Ideal) κ "neg_big" (φ := .f32) 0xFF333332#32))
    (mulf (matmul dot_S256x128_S2048x128_S256x2048_1_1_0_0_n_n none (shapeCast S256x128 q shapeCasts_S1x256x128_S256x128 : FVec Ideal S256x128 .f32) (shapeCast S2048x128 kk shapeCasts_S1x2048x128_S2048x128 : FVec Ideal S2048x128 .f32) (constant (F := Ideal) S256x2048 .f32 0x00000000#32))
      (broadcast S256x2048 (Scalar.ofBits (F := Ideal) .f32 0x3DB504F3#32)))

theorem maskedTile_apply (q : Vec Ideal S1x256x128 .f32) (kk : Vec Ideal S1x2048x128 .f32) (mt : Vec Ideal S256x2048 .i32) (r : Fin 256)
    (k : Fin 2048) : maskedTile q kk mt (ix2 r k) = tileScores q kk mt r k := by
  show Scalar.select (IntOp.cmpi .eq (mt (ix2 r k)) 0#32) (Named.named (F := Ideal) κ "neg_big" (φ := .f32) 0xFF333332#32)
    (matmul dot_S256x128_S2048x128_S256x2048_1_1_0_0_n_n none (shapeCast S256x128 q shapeCasts_S1x256x128_S256x128 : FVec Ideal S256x128 .f32) (shapeCast S2048x128 kk shapeCasts_S1x2048x128_S2048x128 : FVec Ideal S2048x128 .f32) (constant (F := Ideal) S256x2048 .f32 0x00000000#32) (ix2 r k)
      * Ideal.ofBits .f32 0x3DB504F3#32) = _
  rw [select_eq_zero, neg_big, scores_apply]
  simp only [shapeCast_1ab_ab_apply]
  rfl

set_option maxRecDepth 65536 in
/-- The weights tile is the softmax of the masked scores tile. -/
theorem pay1_eq (q : Vec Ideal S1x256x128 .f32) (kk : Vec Ideal S1x2048x128 .f32) (mt : Vec Ideal S256x2048 .i32) :
    k0_pay1 (F := Ideal) q kk mt = softmaxTile (maskedTile q kk mt) := rfl

/-- The weights tile at `(r, k)`. -/
theorem weightsTile_apply (q : Vec Ideal S1x256x128 .f32) (kk : Vec Ideal S1x2048x128 .f32) (mt : Vec Ideal S256x2048 .i32) (r : Fin 256)
    (k : Fin 2048) : k0_pay1 (F := Ideal) q kk mt (ix2 r k) = softmaxRow (tileScores q kk mt r) k := by
  rw [pay1_eq]
  exact (softmaxTile_apply (maskedTile q kk mt) r k).trans
    (congrArg (fun s => softmaxRow s k) (funext fun k' => maskedTile_apply q kk mt r k'))

/-- The stored weights block (with its leading unit axis) at `(0, r, k)`. -/
theorem weightsStore_apply (q : Vec Ideal S1x256x128 .f32) (kk : Vec Ideal S1x2048x128 .f32) (mt : Vec Ideal S256x2048 .i32) (u : Fin 1)
    (r : Fin 256) (k : Fin 2048) : k0_pay2 (F := Ideal) q kk mt (ix3 u r k) = softmaxRow (tileScores q kk mt r) k := by
  unfold k0_pay2
  exact (shapeCast_ab_1ab_apply _ shapeCasts_S256x2048_S1x256x2048 u r k).trans (weightsTile_apply q kk mt r k)

/-- The stored output block (with its leading unit axis) at `(0, r, d)`. -/
theorem outputStore_apply (q : Vec Ideal S1x256x128 .f32) (kk vv : Vec Ideal S1x2048x128 .f32) (mt : Vec Ideal S256x2048 .i32) (u : Fin 1)
    (r : Fin 256) (d : Fin 128) :
    k0_pay3 (F := Ideal) q kk vv mt (ix3 u r d) = ∑ k : Fin 2048, softmaxRow (tileScores q kk mt r) k * vv (ix3 (0 : Fin 1) k d) := by
  unfold k0_pay3
  refine (shapeCast_ab_1ab_apply _ shapeCasts_S256x128_S1x256x128 u r d).trans ?_
  refine (combine_apply _ _ r d).trans ?_
  refine Finset.sum_congr rfl fun k _ => ?_
  exact congrArg₂ (· * ·) (weightsTile_apply q kk mt r k) (shapeCast_1ab_ab_apply vv shapeCasts_S1x2048x128_S2048x128 k d)

end Cert.KernelIdeal.Payload

end
-- ==== Proof.KernelValue.lean ====
/-
  The kernel's two result arrays, at the ideal instance, are the attention output and the attention weights of its
  argument arrays.

  The grid is batches × query tiles (8 × 8 points). At point `(b, qi)` the query window's block is rows
  `256·qi …` of batch `b`, the key and value windows' blocks are batch `b` whole, the mask window's block is the
  whole mask, and both output windows' blocks are rows `256·qi …` of batch `b` of their arrays. Reading the blocks
  at their places in the arrays turns what the body stores (the softmax of the tile's masked scores, and its
  combination of the value rows) into the corresponding rows of `Cert.Attention.weights` and
  `Cert.Attention.output`; every index of either array lies in exactly the block of the point `(i₀, i₁ / 256)`,
  so the arrays end holding those two functions.
-/
import proofs.«403430_j75076028334843_3_alg».proof.Proof.Gen.KernelIdeal.Value
import proofs.«403430_j75076028334843_3_alg».proof.Proof.KernelPieces
import proofs.«403430_j75076028334843_3_alg».proof.Proof.KernelPayload
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.AttnValue

open Cert.KernelIdeal Cert.KernelIdeal.Gen Cert.KernelIdeal.Pieces Cert.KernelIdeal.Payload Cert.Attention

variable (m : (ℓ : Loc nD τ sig) → Buf (Elt Ideal) ℓ) (ρ : Dev nD → PrngReg)

/-! ## The arrays and the blocks, at their literal types -/

abbrev argQ (c : Dev nD) : SQ.Idx → EReal := V m c main_arg0
abbrev argK (c : Dev nD) : SQ.Idx → EReal := V m c main_arg1
abbrev argV (c : Dev nD) : SQ.Idx → EReal := V m c main_arg2
abbrev argM (c : Dev nD) : SM.Idx → BitVec 32 := V m c main_arg3

abbrev qBlk (c : Dev nD) (t : Fin cfg0.N) : Vec Ideal S1x256x128 .f32 := iblk m c 0 t
abbrev kBlk (c : Dev nD) (t : Fin cfg0.N) : Vec Ideal S1x2048x128 .f32 := iblk m c 1 t
abbrev vBlk (c : Dev nD) (t : Fin cfg0.N) : Vec Ideal S1x2048x128 .f32 := iblk m c 2 t
abbrev mBlk (c : Dev nD) (t : Fin cfg0.N) : Vec Ideal S2048x2048 .i32 := iblk m c 3 t

/-! ## The index maps over the grid -/

/-- Each window's block index at a point, in the point's coordinates (batch, query tile). -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = (grid0.coords t 0).val ∧ win0_4.index t (1 : Fin 3) = (grid0.coords t 1).val ∧ win0_4.index t (2 : Fin 3) = 0
    ∧ win0_5.index t (0 : Fin 3) = (grid0.coords t 0).val ∧ win0_5.index t (1 : Fin 3) = (grid0.coords t 1).val ∧ win0_5.index t (2 : Fin 3) = 0 :=
  (by decide +kernel : ∀ t : Fin grid0.N, _)

/-- Every (batch, query tile) pair is some point's coordinates. -/
theorem point_onto : ∀ (b qi : Fin 8), ∃ t : Fin cfg0.N, (grid0.coords t 0).val = b.val ∧ (grid0.coords t 1).val = qi.val :=
  (by decide +kernel : ∀ (b qi : Fin 8), ∃ t : Fin grid0.N, (grid0.coords t 0).val = b.val ∧ (grid0.coords t 1).val = qi.val)

/-! ## The input blocks read at their places in the arrays -/

theorem qBlk_apply (c : Dev nD) (t : Fin cfg0.N) (u : Fin 1) (r : Fin 256) (d : Fin 128) (b : Fin 8) (row : Fin 2048)
    (hb : b.val = (grid0.coords t 0).val) (hrow : row.val = 256 * (grid0.coords t 1).val + r.val) :
    qBlk m c t (ix3 u r d) = argQ m c (ix3 b row d) := by
  obtain ⟨e0, e1, e2, -⟩ := idx_facts t
  have hu : u.val = 0 := by omega
  unfold qBlk iblk
  rw [View.read_apply]
  refine congrArg (V m c main_arg0) (funext fun a => Fin.ext ?_)
  match a with
  | ⟨0, _⟩ => show win0_0.index t (0 : Fin 3) * 1 + 1 * u.val = b.val; rw [e0, hb, hu]; omega
  | ⟨1, _⟩ => show win0_0.index t (1 : Fin 3) * 256 + 1 * r.val = row.val; rw [e1, hrow]; omega
  | ⟨2, _⟩ => show win0_0.index t (2 : Fin 3) * 128 + 1 * d.val = d.val; rw [e2]; omega

theorem kBlk_apply (c : Dev nD) (t : Fin cfg0.N) (u : Fin 1) (k : Fin 2048) (d : Fin 128) (b : Fin 8)
    (hb : b.val = (grid0.coords t 0).val) : kBlk m c t (ix3 u k d) = argK m c (ix3 b k d) := by
  obtain ⟨-, -, -, e0, e1, e2, -⟩ := idx_facts t
  have hu : u.val = 0 := by omega
  unfold kBlk iblk
  rw [View.read_apply]
  refine congrArg (V m c main_arg1) (funext fun a => Fin.ext ?_)
  match a with
  | ⟨0, _⟩ => show win0_1.index t (0 : Fin 3) * 1 + 1 * u.val = b.val; rw [e0, hb, hu]; omega
  | ⟨1, _⟩ => show win0_1.index t (1 : Fin 3) * 2048 + 1 * k.val = k.val; rw [e1]; omega
  | ⟨2, _⟩ => show win0_1.index t (2 : Fin 3) * 128 + 1 * d.val = d.val; rw [e2]; omega

theorem vBlk_apply (c : Dev nD) (t : Fin cfg0.N) (u : Fin 1) (k : Fin 2048) (d : Fin 128) (b : Fin 8)
    (hb : b.val = (grid0.coords t 0).val) : vBlk m c t (ix3 u k d) = argV m c (ix3 b k d) := by
  obtain ⟨-, -, -, -, -, -, e0, e1, e2, -⟩ := idx_facts t
  have hu : u.val = 0 := by omega
  unfold vBlk iblk
  rw [View.read_apply]
  refine congrArg (V m c main_arg2) (funext fun a => Fin.ext ?_)
  match a with
  | ⟨0, _⟩ => show win0_2.index t (0 : Fin 3) * 1 + 1 * u.val = b.val; rw [e0, hb, hu]; omega
  | ⟨1, _⟩ => show win0_2.index t (1 : Fin 3) * 2048 + 1 * k.val = k.val; rw [e1]; omega
  | ⟨2, _⟩ => show win0_2.index t (2 : Fin 3) * 128 + 1 * d.val = d.val; rw [e2]; omega

theorem mBlk_apply (c : Dev nD) (t : Fin cfg0.N) (r k : Fin 2048) : mBlk m c t (ix2 r k) = argM m c (ix2 r k) := by
  obtain ⟨-, -, -, -, -, -, -, -, -, e0, e1, -⟩ := idx_facts t
  unfold mBlk iblk
  rw [View.read_apply]
  refine congrArg (V m c main_arg3) (funext fun a => Fin.ext ?_)
  match a with
  | ⟨0, _⟩ => show win0_3.index t (0 : Fin 2) * 2048 + 1 * r.val = r.val; rw [e0]; omega
  | ⟨1, _⟩ => show win0_3.index t (1 : Fin 2) * 2048 + 1 * k.val = k.val; rw [e1]; omega

/-! ## One tile's masked scores are the arrays' masked scores -/

/-- Row `r` of the tile of point `t` is query row `256·qi + r` of batch `b`. -/
theorem tileScores_eq (c : Dev nD) (t : Fin cfg0.N) (r : Fin 256) (b : Fin 8) (row : Fin 2048)
    (hb : b.val = (grid0.coords t 0).val) (hrow : row.val = 256 * (grid0.coords t 1).val + r.val) :
    tileScores (qBlk m c t) (kBlk m c t) (maskTile (grid0.coords t) (mBlk m c t)) r
      = masked (argQ m c) (argK m c) (argM m c) b row := by
  funext k
  unfold tileScores masked score
  rw [maskTile_apply, mBlk_apply]
  have hr : (⟨256 * (grid0.coords t 1).val + r.val, by have h8 : (grid0.coords t 1).val < 8 := (grid0.coords t 1).isLt; omega⟩ : Fin 2048) = row :=
    Fin.ext hrow.symm
  rw [hr]
  have hs : (∑ d : Fin 128, qBlk m c t (ix3 (0 : Fin 1) r d) * kBlk m c t (ix3 (0 : Fin 1) k d))
      = ∑ d : Fin 128, argQ m c (ix3 b row d) * argK m c (ix3 b k d) :=
    Finset.sum_congr rfl fun d _ => by rw [qBlk_apply m c t 0 r d b row hb hrow, kBlk_apply m c t 0 k d b hb]
  rw [hs]

/-- The weights block of point `t`, at an index of the block, is the weights array at the index's place. -/
theorem weights_point (c : Dev nD) (t : Fin cfg0.N) (y : S1x256x2048.Idx) (i : SW.Idx)
    (h0 : (i 0).val = (grid0.coords t 0).val) (h1 : (i 1).val = 256 * (grid0.coords t 1).val + (y 1).val)
    (h2 : (i 2).val = (y 2).val) :
    k0_pay2 (F := Ideal) (qBlk m c t) (kBlk m c t) (maskTile (grid0.coords t) (mBlk m c t)) y
      = weights (argQ m c) (argK m c) (argM m c) i := by
  obtain ⟨u, r, k, rfl⟩ : ∃ (u : Fin 1) (r : Fin 256) (k : Fin 2048), y = ix3 u r k := ⟨y 0, y 1, y 2, eq_ix3 y⟩
  rw [weightsStore_apply, tileScores_eq m c t r (i 0) (i 1) h0 h1]
  unfold weights
  exact congrArg (softmaxRow _) (Fin.ext h2.symm)

/-- The output block of point `t`, at an index of the block, is the output array at the index's place. -/
theorem output_point (c : Dev nD) (t : Fin cfg0.N) (y : S1x256x128.Idx) (i : SQ.Idx)
    (h0 : (i 0).val = (grid0.coords t 0).val) (h1 : (i 1).val = 256 * (grid0.coords t 1).val + (y 1).val)
    (h2 : (i 2).val = (y 2).val) :
    k0_pay3 (F := Ideal) (qBlk m c t) (kBlk m c t) (vBlk m c t) (maskTile (grid0.coords t) (mBlk m c t)) y
      = output (argQ m c) (argK m c) (argV m c) (argM m c) i := by
  obtain ⟨u, r, d, rfl⟩ : ∃ (u : Fin 1) (r : Fin 256) (d : Fin 128), y = ix3 u r d := ⟨y 0, y 1, y 2, eq_ix3 y⟩
  rw [outputStore_apply, tileScores_eq m c t r (i 0) (i 1) h0 h1]
  unfold output weights
  refine Finset.sum_congr rfl fun k _ => ?_
  rw [vBlk_apply m c t 0 k d (i 0) h0]
  exact congrArg (fun j => softmaxRow _ k * argV m c (ix3 (i 0) k j)) (Fin.ext h2.symm)

/-! ## From the blocks to the arrays -/

/-- What point `t` writes back to the weights array is the point's block of `Cert.Attention.weights`. -/
theorem weightsFlushed (c : Dev nD) (t : Fin cfg0.N) :
    (dats m 0 c).flushed 5 t
      = ((cfg0.win 5).blk t).view.read (Elt Ideal) (weights (argQ m c) (argK m c) (argM m c)) := by
  obtain ⟨-, -, -, -, -, -, -, -, -, -, -, -, -, -, e0, e1, e2⟩ := idx_facts t
  rw [Value.flushed5_A m c t, weightsBlock_eq]
  funext y
  show k0_pay2 (F := Ideal) (qBlk m c t) (kBlk m c t) (maskTile (grid0.coords t) (mBlk m c t)) y
    = weights (argQ m c) (argK m c) (argM m c) (((cfg0.win 5).blk t).view.emb y)
  have hy0 : (y 0).val < 1 := (y 0).isLt
  refine weights_point m c t y _ ?_ ?_ ?_
  · show win0_5.index t (0 : Fin 3) * 1 + 1 * (y 0).val = _; rw [e0]; omega
  · show win0_5.index t (1 : Fin 3) * 256 + 1 * (y 1).val = _; rw [e1]; omega
  · show win0_5.index t (2 : Fin 3) * 2048 + 1 * (y 2).val = _; rw [e2]; omega

/-- What point `t` writes back to the output array is the point's block of `Cert.Attention.output`. -/
theorem outputFlushed (c : Dev nD) (t : Fin cfg0.N) :
    (dats m 0 c).flushed 4 t
      = ((cfg0.win 4).blk t).view.read (Elt Ideal) (output (argQ m c) (argK m c) (argV m c) (argM m c)) := by
  obtain ⟨-, -, -, -, -, -, -, -, -, -, -, e0, e1, e2, -⟩ := idx_facts t
  rw [Value.flushed4_A m c t, outputBlock_eq]
  funext y
  show k0_pay3 (F := Ideal) (qBlk m c t) (kBlk m c t) (vBlk m c t) (maskTile (grid0.coords t) (mBlk m c t)) y
    = output (argQ m c) (argK m c) (argV m c) (argM m c) (((cfg0.win 4).blk t).view.emb y)
  have hy0 : (y 0).val < 1 := (y 0).isLt
  refine output_point m c t y _ ?_ ?_ ?_
  · show win0_4.index t (0 : Fin 3) * 1 + 1 * (y 0).val = _; rw [e0]; omega
  · show win0_4.index t (1 : Fin 3) * 256 + 1 * (y 1).val = _; rw [e1]; omega
  · show win0_4.index t (2 : Fin 3) * 128 + 1 * (y 2).val = _; rw [e2]; omega

/-- An index of the weights array is in point `t`'s block iff each coordinate is in the block's range on its axis. -/
theorem mem_weightsBlk (t : Fin cfg0.N) (i : S8x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0_1).slice (win0_5.rect t)).set ↔ _
  rw [View.set_slice_whole, Rect.mem_set_unit]
  exact Iff.rfl

/-- An index of the output array is in point `t`'s block iff each coordinate is in the block's range on its axis. -/
theorem mem_outputBlk (t : Fin cfg0.N) (i : S8x2048x128.Idx) :
    i ∈ ((cfg0.win 4).blk t).view.set ↔ ∀ a : Fin 3, win0_4.index t a * S1x256x128.size a ≤ (i a).val
      ∧ (i a).val < win0_4.index t a * S1x256x128.size a + S1x256x128.size a := by
  show i ∈ ((View.whole main_v0_0).slice (win0_4.rect t)).set ↔ _
  rw [View.set_slice_whole, Rect.mem_set_unit]
  exact Iff.rfl

/-- Every index of the weights array is in the block of the point (its batch, its row's tile). -/
theorem weightsCover (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, hb, hq⟩ := point_onto ⟨(i 0).val, hi0⟩ ⟨(i 1).val / 256, by omega⟩
  have hb' : (grid0.coords t 0).val = (i 0).val := hb
  have hq' : (grid0.coords t 1).val = (i 1).val / 256 := hq
  obtain ⟨-, -, -, -, -, -, -, -, -, -, -, -, -, -, e0, e1, e2⟩ := idx_facts t
  refine ⟨t, flush0_5 t, ?_⟩
  rw [mem_weightsBlk]
  intro a
  match a with
  | ⟨0, _⟩ => show win0_5.index t (0 : Fin 3) * 1 ≤ (i 0).val ∧ (i 0).val < win0_5.index t (0 : Fin 3) * 1 + 1; rw [e0, hb']; omega
  | ⟨1, _⟩ => show win0_5.index t (1 : Fin 3) * 256 ≤ (i 1).val ∧ (i 1).val < win0_5.index t (1 : Fin 3) * 256 + 256; rw [e1, hq']; omega
  | ⟨2, _⟩ => show win0_5.index t (2 : Fin 3) * 2048 ≤ (i 2).val ∧ (i 2).val < win0_5.index t (2 : Fin 3) * 2048 + 2048; rw [e2]; omega

/-- Every index of the output array is in the block of the point (its batch, its row's tile). -/
theorem outputCover (i : S8x2048x128.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 128 := (i 2).isLt
  obtain ⟨t, hb, hq⟩ := point_onto ⟨(i 0).val, hi0⟩ ⟨(i 1).val / 256, by omega⟩
  have hb' : (grid0.coords t 0).val = (i 0).val := hb
  have hq' : (grid0.coords t 1).val = (i 1).val / 256 := hq
  obtain ⟨-, -, -, -, -, -, -, -, -, -, -, e0, e1, e2, -⟩ := idx_facts t
  refine ⟨t, flush0_4 t, ?_⟩
  rw [mem_outputBlk]
  intro a
  match a with
  | ⟨0, _⟩ => show win0_4.index t (0 : Fin 3) * 1 ≤ (i 0).val ∧ (i 0).val < win0_4.index t (0 : Fin 3) * 1 + 1; rw [e0, hb']; omega
  | ⟨1, _⟩ => show win0_4.index t (1 : Fin 3) * 256 ≤ (i 1).val ∧ (i 1).val < win0_4.index t (1 : Fin 3) * 256 + 256; rw [e1, hq']; omega
  | ⟨2, _⟩ => show win0_4.index t (2 : Fin 3) * 128 ≤ (i 2).val ∧ (i 2).val < win0_4.index t (2 : Fin 3) * 128 + 128; rw [e2]; omega

/-- The weights array after the run. -/
theorem weightsArray (c : Dev nD) : (dats m 0 c).arrAt 5 cfg0.N = weights (argQ m c) (argK m c) (argM m c) :=
  (dats m 0 c).arrAt_eq_of_cover 5 _ (fun t _ => weightsFlushed m c t) weightsCover

/-- The output array after the run. -/
theorem outputArray (c : Dev nD) : (dats m 0 c).arrAt 4 cfg0.N = output (argQ m c) (argK m c) (argV m c) (argM m c) :=
  (dats m 0 c).arrAt_eq_of_cover 4 _ (fun t _ => outputFlushed m c t) outputCover

/-- The kernel's run, read: both result arrays at their functions of the argument arrays, the arguments unchanged. -/
theorem run : θ_run defs (onTc (τ := τ) (main (F := Ideal))) ⟨m, fun _ => 0, ρ⟩ fun r => ∀ c : Dev nD,
      r.2.mem ((c : Thread nD τ).loc main_v0_0) = output (argQ m c) (argK m c) (argV m c) (argM m c)
      ∧ r.2.mem ((c : Thread nD τ).loc main_v0_1) = weights (argQ m c) (argK m c) (argM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (outputArray m c), (h c).2.1.trans (weightsArray m c), (h c).2.2⟩)
    (Value.run_blocks m ρ)

end Cert.KernelIdeal.AttnValue

end
-- ==== Proof.RefValue.lean ====
/-
  The reference, read index by index at the ideal instance, is masked softmax attention.

  The host program forms all scaled scores by one batched product, puts `-∞` where the mask word is zero (the mask
  is shared by the batches), takes each row's maximum from `-∞` (and once more the maximum of that with `-∞`,
  which changes nothing), subtracts it, exponentiates, divides by the row's sum taken from zero, and combines the
  value rows by a second batched product. Stage by stage these are the definitions of `Cert.Attention`.
-/
import proofs.«403430_j75076028334843_3_alg».proof.Proof.Gen.ReferenceIdeal.Read
import proofs.«403430_j75076028334843_3_alg».proof.Proof.Softmax
import Idealize.ShloMosaic.Lib.Pipeline.Value
import Idealize.ShloMosaic.Lib.ValueIdx
import Idealize.ShloMosaic.PureOps.Ideal.Laws
import Idealize.ShloMosaic.PureOps.Reduce

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Attention

variable (Q K V : SQ.Idx → EReal) (M : SM.Idx → BitVec 32)

/-! ## Where each stage reads its operands -/

theorem idx_mask (b : Fin 8) (r k : Fin 2048) : idx_main_call0_v1 (ix3 b r k) = ix2 r k :=
  funext fun a => by match a with | ⟨0, _⟩ => rfl | ⟨1, _⟩ => rfl
theorem lidx_scores (b : Fin 8) (r k : Fin 2048) (d : Fin 128) : lidx_main_v0 (ix3 b r k) d = ix3 b r d :=
  funext fun a => by match a with | ⟨0, _⟩ => rfl | ⟨1, _⟩ => rfl | ⟨2, _⟩ => rfl
theorem ridx_scores (b : Fin 8) (r k : Fin 2048) (d : Fin 128) : ridx_main_v0 (ix3 b r k) d = ix3 b k d :=
  funext fun a => by match a with | ⟨0, _⟩ => rfl | ⟨1, _⟩ => rfl | ⟨2, _⟩ => rfl
theorem idx_rowOfMax (b : Fin 8) (r k : Fin 2048) : idx_main_v9 (idx_main_v10 (ix3 b r k)) = ix2 b r :=
  funext fun a => by match a with | ⟨0, _⟩ => rfl | ⟨1, _⟩ => rfl
theorem idx_rowOfSum (b : Fin 8) (r k : Fin 2048) : idx_main_v14 (idx_main_v15 (ix3 b r k)) = ix2 b r :=
  funext fun a => by match a with | ⟨0, _⟩ => rfl | ⟨1, _⟩ => rfl
theorem idx_summand (b : Fin 8) (r k : Fin 2048) : idx_main_v13 (ix2 b r) k = ix3 b r k :=
  funext fun a => by match a with | ⟨0, _⟩ => rfl | ⟨1, _⟩ => rfl | ⟨2, _⟩ => rfl
theorem lidx_combine (b : Fin 8) (r : Fin 2048) (d : Fin 128) (k : Fin 2048) : lidx_main_v17 (ix3 b r d) k = ix3 b r k :=
  funext fun a => by match a with | ⟨0, _⟩ => rfl | ⟨1, _⟩ => rfl | ⟨2, _⟩ => rfl
theorem ridx_combine (b : Fin 8) (r : Fin 2048) (d : Fin 128) (k : Fin 2048) : ridx_main_v17 (ix3 b r d) k = ix3 b k d :=
  funext fun a => by match a with | ⟨0, _⟩ => rfl | ⟨1, _⟩ => rfl | ⟨2, _⟩ => rfl

/-! ## The stages -/

/-- The selected scores are the masked scaled scores. -/
theorem maskedScores_apply (b : Fin 8) (r k : Fin 2048) :
    val_main_v5 (F := Ideal) Q K M (ix3 b r k) = masked Q K M b r k := by
  rw [val_main_v5_apply, val_main_call0_v1_apply, val_main_v4_apply, val_main_v3_apply, val_main_c_apply,
    val_main_call0_v2_apply, val_main_call0_v0_apply, val_main_cst_0_apply, val_main_v2_apply, val_main_v0_apply,
    val_main_v1_apply, val_main_cst_apply, select_eq_zero, idx_mask]
  unfold masked score
  simp only [lidx_scores, ridx_scores, Ideal.ofBits_def, Ideal.mulf_def, ofBits_neg_inf]

/-- The host's maximum over the key axis from `-∞`, at `(b, r)`, is that row's maximum. -/
theorem hostRowMax_apply (X : S8x2048x2048.Idx → EReal) (b : Fin 8) (r : Fin 2048) :
    Host.reduce (FloatOps.maximumf (F := Ideal) (φ := .f32)) X (constant (F := Ideal) S_ .f32 0xFF800000#32)
      reducesTo_S8x2048x2048_S8x2048_d2 h_S_ (ix2 b r) = rowMax fun k => X (ix3 b r k) := by
  have hred : S8x2048x2048.Reduces [2] S8x2048 := by decide
  refine (Host.reduce_eq_fold_single (FloatOps.maximumf (F := Ideal) (φ := .f32)) X _ reducesTo_S8x2048x2048_S8x2048_d2 hred h_S_ (ix2 b r)).trans ?_
  have hf : (X ∘ hred.lift (ix2 b r)) = fun k : Fin 2048 => X (ix3 b r k) :=
    funext fun k => congrArg X (by funext c; apply Fin.ext; fin_cases c <;> rfl)
  show Finset.fold max (Ideal.ofBits .f32 0xFF800000#32) (X ∘ hred.lift (ix2 b r)) (Finset.univ : Finset (Fin 2048)) = _
  rw [hf, ofBits_neg_inf]
  rfl

/-- The row maximum the host subtracts: the maximum of `-∞` and the reduce's result is the row's maximum. -/
theorem rowMax_apply (b : Fin 8) (r : Fin 2048) :
    val_main_v8 (F := Ideal) Q K M (ix2 b r) = rowMax (masked Q K M b r) := by
  rw [val_main_v8_apply, val_main_v7_apply, val_main_cst_2_apply]
  unfold val_main_v6 val_main_cst_1
  rw [hostRowMax_apply]
  simp only [Ideal.ofBits_def, Ideal.maximumf_def, ofBits_neg_inf, max_bot_left]
  exact congrArg rowMax (funext fun k => maskedScores_apply Q K M b r k)

/-- The shifted exponentials. -/
theorem shifted_apply (b : Fin 8) (r k : Fin 2048) :
    val_main_v12 (F := Ideal) Q K M (ix3 b r k) = Ideal.exp (masked Q K M b r k - rowMax (masked Q K M b r)) := by
  rw [val_main_v12_apply, val_main_v11_apply, val_main_v10_apply, val_main_v9_apply, idx_rowOfMax, rowMax_apply,
    maskedScores_apply]
  rfl

/-- The row sums, taken from zero. -/
theorem rowSum_apply (b : Fin 8) (r : Fin 2048) :
    val_main_v13 (F := Ideal) Q K M (ix2 b r)
      = ∑ k : Fin 2048, Ideal.exp (masked Q K M b r k - rowMax (masked Q K M b r)) := by
  rw [val_main_v13_apply, val_main_cst_3_apply]
  simp only [Ideal.ofBits_def, Ideal.ofBits_zero_f32, zero_add, idx_summand, shifted_apply]

/-- The host's weights are the attention weights. -/
theorem weights_eq : val_main_v16 (F := Ideal) Q K M = weights Q K M := by
  funext i
  obtain ⟨b, r, k, rfl⟩ : ∃ (b : Fin 8) (r k : Fin 2048), i = ix3 b r k := ⟨i 0, i 1, i 2, eq_ix3 i⟩
  rw [val_main_v16_apply, val_main_v15_apply, val_main_v14_apply, idx_rowOfSum, rowSum_apply, shifted_apply]
  rfl

/-- The host's output is the attention output. -/
theorem output_eq : val_main_v17 (F := Ideal) Q K V M = output Q K V M := by
  funext i
  obtain ⟨b, r, d, rfl⟩ : ∃ (b : Fin 8) (r : Fin 2048) (d : Fin 128), i = ix3 b r d := ⟨i 0, i 1, i 2, eq_ix3 i⟩
  rw [val_main_v17_apply, weights_eq]
  simp only [lidx_combine, ridx_combine]
  rfl

end Cert.ReferenceIdeal.RefValue

end
-- ==== Proof.lean ====
/-
  The certificate of the attention kernel against its jnp reference, over the extended reals.

  Both programs compute masked scaled-dot-product attention: scores `Q·Kᵀ` times a scale, `-∞` where the mask
  word is zero, a row softmax (maximum from `-∞`, shifted exponentials, their sum from zero, the quotient), and the
  weights' combination of the value rows. The kernel does it tile by tile (one batch and 256 query rows per grid
  point, the mask rows read at the tile's row offset) with a finite stand-in for `-∞` that the certificate's table
  names `-∞`; the reference does it in whole-array operations. Each side is read back as the SAME two functions of
  the argument arrays (`Cert.Attention.output`, `Cert.Attention.weights`): the kernel in Proof/KernelPieces.lean,
  Proof/KernelPayload.lean and Proof/KernelValue.lean, the reference in Proof/RefValue.lean. No algebraic law is
  needed between the two sides (sums and folds are re-indexed, never re-associated), so the precondition is not used.
-/
import proofs.«403430_j75076028334843_3_alg».proof.Defs
import proofs.«403430_j75076028334843_3_alg».proof.Proof.Gen.Kernel
import proofs.«403430_j75076028334843_3_alg».proof.Proof.Gen.Kernel.Skeleton
import proofs.«403430_j75076028334843_3_alg».proof.Proof.Gen.Kernel.Launch
import proofs.«403430_j75076028334843_3_alg».proof.Proof.Gen.Kernel.Points
import proofs.«403430_j75076028334843_3_alg».proof.Proof.Gen.Kernel.Frame
import proofs.«403430_j75076028334843_3_alg».proof.Proof.Gen.KernelIdeal
import proofs.«403430_j75076028334843_3_alg».proof.Proof.Gen.KernelIdeal.Skeleton
import proofs.«403430_j75076028334843_3_alg».proof.Proof.Gen.KernelIdeal.Launch
import proofs.«403430_j75076028334843_3_alg».proof.Proof.Gen.KernelIdeal.Points
import proofs.«403430_j75076028334843_3_alg».proof.Proof.Gen.KernelIdeal.Frame
import proofs.«403430_j75076028334843_3_alg».proof.Proof.Gen.ReferenceIdeal
import proofs.«403430_j75076028334843_3_alg».proof.Proof.Gen.Pre_finite_inputs
import proofs.«403430_j75076028334843_3_alg».proof.Proof.Gen.KernelIdeal.Value
import proofs.«403430_j75076028334843_3_alg».proof.Proof.Gen.ReferenceIdeal.Run
import proofs.«403430_j75076028334843_3_alg».proof.Proof.Gen.ReferenceIdeal.Read
import proofs.«403430_j75076028334843_3_alg».proof.Proof.KernelValue
import proofs.«403430_j75076028334843_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its frame is the run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the kernel's finite stand-in is named `-∞` by the certificate's table. -/
theorem preserves : Cert.preserves_Kernel_KernelIdeal :=
  IdealRules.named_const.statement Cert.KernelIdeal.κ "neg_big" .f32 0xFF333332#32 ⊥ rfl

/-- Both runs end with the attention output and the attention weights of the (agreeing) argument arrays. -/
theorem algebraic : Cert.algebraic_KernelIdeal_ReferenceIdeal := by
  intro m ρ m' ρ' _ hagree
  refine ⟨_, _, Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v17_eq _ _ _ _).trans (Cert.ReferenceIdeal.RefValue.output_eq _ _ _ _)
  · rw [(hagree c).1, (hagree c).2.1, (hagree c).2.2.2]
    exact (Cert.ReferenceIdeal.Read.val_main_v16_eq _ _ _).trans (Cert.ReferenceIdeal.RefValue.weights_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
